-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S4x8192x20 : Shape := ⟨3, ![4, 8192, 20]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel

variable [Facts]

def fn {F : FTy → Type} [FloatOps F] (main_arg0 : FVec F S4x8192x64 .f32) (main_arg1 : IVec S4x8192x20 32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  main_v3
-- ==== Kernel.lean ====
abbrev S4x8192x64 : Shape := ⟨3, ![4, 8192, 64]⟩
abbrev S4x8192x20 : Shape := ⟨3, ![4, 8192, 20]⟩
abbrev S4 : Shape := ⟨1, ![4]⟩
abbrev S4x1x1 : Shape := ⟨3, ![4, 1, 1]⟩
abbrev S_ : Shape := ⟨0, ![]⟩
abbrev S4x8192x20x1 : Shape := ⟨4, ![4, 8192, 20, 1]⟩
abbrev S4x8192x20x2 : Shape := ⟨4, ![4, 8192, 20, 2]⟩
abbrev S4x8192x20x64 : Shape := ⟨4, ![4, 8192, 20, 64]⟩
abbrev S4x8192x3860 : Shape := ⟨3, ![4, 8192, 3860]⟩
abbrev S1x512x64 : Shape := ⟨3, ![1, 512, 64]⟩
abbrev S1x512x20x64 : Shape := ⟨4, ![1, 512, 20, 64]⟩
abbrev S1x512x3860 : Shape := ⟨3, ![1, 512, 3860]⟩
abbrev S512x64 : Shape := ⟨2, ![512, 64]⟩
abbrev S512x20x64 : Shape := ⟨3, ![512, 20, 64]⟩
abbrev S512x1x64 : Shape := ⟨3, ![512, 1, 64]⟩
abbrev S512x20 : Shape := ⟨2, ![512, 20]⟩
abbrev S512x20x1 : Shape := ⟨3, ![512, 20, 1]⟩
abbrev S512x20x193 : Shape := ⟨3, ![512, 20, 193]⟩
abbrev S512x3860 : Shape := ⟨2, ![512, 3860]⟩
abbrev S4x8192x20x193 : Shape := ⟨4, ![4, 8192, 20, 193]⟩

abbrev nBuf : Space → Nat
  | .hbm => 25
  | .vmem => 6
  | .smem => 0
  | _ => 0

abbrev bufTy : (tb : Table) → Fin (tcTables nBuf tb) → BufTy
  | .hbm, ⟨0, _⟩ => ⟨S4x8192x64, .f32⟩
  | .hbm, ⟨1, _⟩ => ⟨S4x8192x20, .i32⟩
  | .hbm, ⟨2, _⟩ => ⟨S4, .i32⟩
  | .hbm, ⟨3, _⟩ => ⟨S4x1x1, .i32⟩
  | .hbm, ⟨4, _⟩ => ⟨S_, .i32⟩
  | .hbm, ⟨5, _⟩ => ⟨S4x1x1, .i32⟩
  | .hbm, ⟨6, _⟩ => ⟨S4x1x1, .i1⟩
  | .hbm, ⟨7, _⟩ => ⟨S_, .i32⟩
  | .hbm, ⟨8, _⟩ => ⟨S4x1x1, .i32⟩
  | .hbm, ⟨9, _⟩ => ⟨S4x1x1, .i32⟩
  | .hbm, ⟨10, _⟩ => ⟨S4x1x1, .i32⟩
  | .hbm, ⟨11, _⟩ => ⟨S_, .i32⟩
  | .hbm, ⟨12, _⟩ => ⟨S4x8192x20, .i32⟩
  | .hbm, ⟨13, _⟩ => ⟨S4x8192x20, .i1⟩
  | .hbm, ⟨14, _⟩ => ⟨S_, .i32⟩
  | .hbm, ⟨15, _⟩ => ⟨S4x8192x20, .i32⟩
  | .hbm, ⟨16, _⟩ => ⟨S4x8192x20, .i32⟩
  | .hbm, ⟨17, _⟩ => ⟨S4x8192x20, .i32⟩
  | .hbm, ⟨18, _⟩ => ⟨S4x8192x20, .i32⟩
  | .hbm, ⟨19, _⟩ => ⟨S4x8192x20x1, .i32⟩
  | .hbm, ⟨20, _⟩ => ⟨S4x8192x20x1, .i32⟩
  | .hbm, ⟨21, _⟩ => ⟨S4x8192x20x2, .i32⟩
  | .hbm, ⟨22, _⟩ => ⟨S4x8192x20x64, .f32⟩
  | .hbm, ⟨23, _⟩ => ⟨S4x8192x3860, .f32⟩
  | .hbm, ⟨24, _⟩ => ⟨S4x8192x20x193, .f32⟩
  | .local _ .vmem, ⟨0, _⟩ => ⟨S1x512x64, .f32⟩
  | .local _ .vmem, ⟨1, _⟩ => ⟨S1x512x64, .f32⟩
  | .local _ .vmem, ⟨2, _⟩ => ⟨S1x512x20x64, .f32⟩
  | .local _ .vmem, ⟨3, _⟩ => ⟨S1x512x20x64, .f32⟩
  | .local _ .vmem, ⟨4, _⟩ => ⟨S1x512x3860, .f32⟩
  | .local _ .vmem, ⟨5, _⟩ => ⟨S1x512x3860, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x20x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x3860 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x8192x20 : S_.BroadcastsInDim S4x8192x20 (![] : Fin 0 → Fin S4x8192x20.rank)
  bcast_S4x1x1_S4x8192x20_0_1_2 : S4x1x1.BroadcastsInDim S4x8192x20 (![0, 1, 2] : Fin 3 → Fin S4x8192x20.rank)
  bcast_S4x8192x20_S4x8192x20x1_0_1_2 : S4x8192x20.BroadcastsInDim S4x8192x20x1 (![0, 1, 2] : Fin 3 → Fin S4x8192x20x1.rank)
  concatenates_S4x8192x20x1_S4x8192x20x1_S4x8192x20x2_d3 : Shape.Concatenates [S4x8192x20x1, S4x8192x20x1] S4x8192x20x2 3
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x20x64_S1x512x20x64_0_0_0_0 : ∀ a, (![0, 0, 0, 0] : Fin 4 → Nat) a + S1x512x20x64.size a ≤ S1x512x20x64.size a
  h_S1x512x20x64 : 0 < S1x512x20x64.numel
  shapeCasts_S1x512x20x64_S512x20x64 : S1x512x20x64.ShapeCasts S512x20x64
  shapeCasts_S512x64_S512x1x64 : S512x64.ShapeCasts S512x1x64
  shapeCasts_S512x1x64_S512x1x64 : S512x1x64.ShapeCasts S512x1x64
  broadcasts_S512x1x64_S512x20x64 : S512x1x64.Broadcasts S512x20x64
  reduces_S512x20x64_S512x20 : S512x20x64.Reduces [2] S512x20
  shapeCasts_S512x20_S512x20x1 : S512x20.ShapeCasts S512x20x1
  concatenates_S512x20x64_S512x20x64_S512x20x64_S512x20x1_S512x20x193_d2 : Shape.Concatenates [S512x20x64, S512x20x64, S512x20x64, S512x20x1] S512x20x193 2
  shapeCasts_S512x20x193_S512x3860 : S512x20x193.ShapeCasts S512x3860
  inb_S1x512x3860_S1x512x3860_0_0_0 : ∀ a, (![0, 0, 0] : Fin 3 → Nat) a + S1x512x3860.size a ≤ S1x512x3860.size a
  h_S1x512x3860 : 0 < S1x512x3860.numel
  shapeCasts_S1x512x3860_S512x3860 : S1x512x3860.ShapeCasts S512x3860
  shapeCasts_S512x3860_S1x512x3860 : S512x3860.ShapeCasts S1x512x3860
  shapeCasts_S4x8192x3860_S4x8192x20x193 : S4x8192x3860.ShapeCasts S4x8192x20x193
  gather_S4x8192x64_S4x8192x20x2_S4x8192x20x64_3_01_n_n_01_3_1164_wf : GatherDims.WF S4x8192x64 S4x8192x20x2 S4x8192x20x64 [3] [0, 1] [] [0, 1] [] 3 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x8192x64.size a
  hwx0_0 : ∀ i : grid0.Coords, EltTy.bits .f32 = 32 ∨ (Rect.block (s := S4x8192x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x20x64.size a ≤ S4x8192x20x64.size a
  hwx0_1 : ∀ i : grid0.Coords, EltTy.bits .f32 = 32 ∨ (Rect.block (s := S4x8192x20x64) S1x512x20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3860.size a ≤ S4x8192x3860.size a
  hwx0_2 : ∀ i : grid0.Coords, EltTy.bits .f32 = 32 ∨ (Rect.block (s := S4x8192x3860) S1x512x3860.size (cc0_transform_2 i) (hinb0_2 i)).WholeWords (EltTy.packing .f32)

variable [Facts₀]

def gather_S4x8192x64_S4x8192x20x2_S4x8192x20x64_3_01_n_n_01_3_1164 : GatherDims S4x8192x64 S4x8192x20x2 S4x8192x20x64 where
  offsetDims := [3]
  collapsedSliceDims := [0, 1]
  operandBatchingDims := []
  startIndicesBatchingDims := []
  startIndexMap := [0, 1]
  indexVectorDim := 3
  sliceSizes := ![1, 1, 64]
  wf := gather_S4x8192x64_S4x8192x20x2_S4x8192x20x64_3_01_n_n_01_3_1164_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x512x20x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512x3860.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x64 : Shape := ⟨3, ![4, 8192, 64]⟩
abbrev S4x8192x20 : Shape := ⟨3, ![4, 8192, 20]⟩
abbrev S4 : Shape := ⟨1, ![4]⟩
abbrev S4x1x1 : Shape := ⟨3, ![4, 1, 1]⟩
abbrev S_ : Shape := ⟨0, ![]⟩
abbrev S4x8192x20x1 : Shape := ⟨4, ![4, 8192, 20, 1]⟩
abbrev S4x8192x20x2 : Shape := ⟨4, ![4, 8192, 20, 2]⟩
abbrev S4x8192x20x64 : Shape := ⟨4, ![4, 8192, 20, 64]⟩
abbrev S4x8192x1x64 : Shape := ⟨4, ![4, 8192, 1, 64]⟩
abbrev S4x8192x20x193 : Shape := ⟨4, ![4, 8192, 20, 193]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x20, .i32⟩
  | .hbm, ⟨2, _⟩ => ⟨S4, .i32⟩
  | .hbm, ⟨3, _⟩ => ⟨S4x1x1, .i32⟩
  | .hbm, ⟨4, _⟩ => ⟨S_, .i32⟩
  | .hbm, ⟨5, _⟩ => ⟨S4x1x1, .i32⟩
  | .hbm, ⟨6, _⟩ => ⟨S4x1x1, .i1⟩
  | .hbm, ⟨7, _⟩ => ⟨S_, .i32⟩
  | .hbm, ⟨8, _⟩ => ⟨S4x1x1, .i32⟩
  | .hbm, ⟨9, _⟩ => ⟨S4x1x1, .i32⟩
  | .hbm, ⟨10, _⟩ => ⟨S4x1x1, .i32⟩
  | .hbm, ⟨11, _⟩ => ⟨S_, .i32⟩
  | .hbm, ⟨12, _⟩ => ⟨S4x8192x20, .i32⟩
  | .hbm, ⟨13, _⟩ => ⟨S4x8192x20, .i1⟩
  | .hbm, ⟨14, _⟩ => ⟨S_, .i32⟩
  | .hbm, ⟨15, _⟩ => ⟨S4x8192x20, .i32⟩
  | .hbm, ⟨16, _⟩ => ⟨S4x8192x20, .i32⟩
  | .hbm, ⟨17, _⟩ => ⟨S4x8192x20, .i32⟩
  | .hbm, ⟨18, _⟩ => ⟨S4x8192x20, .i32⟩
  | .hbm, ⟨19, _⟩ => ⟨S4x8192x20x1, .i32⟩
  | .hbm, ⟨20, _⟩ => ⟨S4x8192x20x1, .i32⟩
  | .hbm, ⟨21, _⟩ => ⟨S4x8192x20x2, .i32⟩
  | .hbm, ⟨22, _⟩ => ⟨S4x8192x20x64, .f32⟩
  | .hbm, ⟨23, _⟩ => ⟨S4x8192x1x64, .f32⟩
  | .hbm, ⟨24, _⟩ => ⟨S4x8192x20x64, .f32⟩
  | .hbm, ⟨25, _⟩ => ⟨S4x8192x20x64, .f32⟩
  | .hbm, ⟨26, _⟩ => ⟨S4x8192x20x64, .f32⟩
  | .hbm, ⟨27, _⟩ => ⟨S_, .f32⟩
  | .hbm, ⟨28, _⟩ => ⟨S4x8192x20, .f32⟩
  | .hbm, ⟨29, _⟩ => ⟨S4x8192x20x1, .f32⟩
  | .hbm, ⟨30, _⟩ => ⟨S4x8192x20x193, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x8192x20 : S_.BroadcastsInDim S4x8192x20 (![] : Fin 0 → Fin S4x8192x20.rank)
  bcast_S4x1x1_S4x8192x20_0_1_2 : S4x1x1.BroadcastsInDim S4x8192x20 (![0, 1, 2] : Fin 3 → Fin S4x8192x20.rank)
  bcast_S4x8192x20_S4x8192x20x1_0_1_2 : S4x8192x20.BroadcastsInDim S4x8192x20x1 (![0, 1, 2] : Fin 3 → Fin S4x8192x20x1.rank)
  concatenates_S4x8192x20x1_S4x8192x20x1_S4x8192x20x2_d3 : Shape.Concatenates [S4x8192x20x1, S4x8192x20x1] S4x8192x20x2 3
  bcast_S4x8192x64_S4x8192x1x64_0_1_3 : S4x8192x64.BroadcastsInDim S4x8192x1x64 (![0, 1, 3] : Fin 3 → Fin S4x8192x1x64.rank)
  bcast_S4x8192x1x64_S4x8192x20x64_0_1_2_3 : S4x8192x1x64.BroadcastsInDim S4x8192x20x64 (![0, 1, 2, 3] : Fin 4 → Fin S4x8192x20x64.rank)
  reducesTo_S4x8192x20x64_S4x8192x20_d3 : S4x8192x20x64.ReducesTo [3] S4x8192x20
  h_S_ : 0 < S_.numel
  concatenates_S4x8192x20x64_S4x8192x20x64_S4x8192x20x64_S4x8192x20x1_S4x8192x20x193_d3 : Shape.Concatenates [S4x8192x20x64, S4x8192x20x64, S4x8192x20x64, S4x8192x20x1] S4x8192x20x193 3
  gather_S4x8192x64_S4x8192x20x2_S4x8192x20x64_3_01_n_n_01_3_1164_wf : GatherDims.WF S4x8192x64 S4x8192x20x2 S4x8192x20x64 [3] [0, 1] [] [0, 1] [] 3 ![1, 1, 64]

variable [Facts₀]

def gather_S4x8192x64_S4x8192x20x2_S4x8192x20x64_3_01_n_n_01_3_1164 : GatherDims S4x8192x64 S4x8192x20x2 S4x8192x20x64 where
  offsetDims := [3]
  collapsedSliceDims := [0, 1]
  operandBatchingDims := []
  startIndicesBatchingDims := []
  startIndexMap := [0, 1]
  indexVectorDim := 3
  sliceSizes := ![1, 1, 64]
  wf := gather_S4x8192x64_S4x8192x20x2_S4x8192x20x64_3_01_n_n_01_3_1164_wf

class Facts : Prop extends Facts₀ where

variable [Facts]
-- ==== Proof.Feature.lean ====
/-
  The edge feature of one query point and one of its neighbours.

  A query point has a row `x` of 64 coordinates, a neighbour a row `y` of 64 coordinates. The feature of the pair is a
  row of 193 = 3 · 64 + 1 entries laid end to end: the query's own coordinates (entries 0–63), the neighbour's
  coordinates (64–127), the neighbour's coordinates relative to the query, `y − x` (128–191), and the squared distance
  `∑ c, (y c − x c)²` (entry 192). Everything is read over the extended reals, where both programs subtract, multiply and
  add in the same order, so no algebraic law — and no finiteness — is needed to compare them.

  `edgeAt` is that row for batch `b`, query `n` and neighbour slot `k` of the point cloud `x` and the gathered neighbour
  array `nb`; `edges` lays the rows out as the [4, 8192, 20, 193] result, `flat` as the [4, 8192, 3860] array whose row
  holds the 20 feature rows of one query one after the other (entry `l` is entry `l % 193` of neighbour `l / 193`). The two
  layouts have the same row-major order: `edges_eq_reshape`.
-/
import Idealize.ShloMosaic.PureOps.Ideal
import Idealize.ShloMosaic.Lib.ValueIdx
import Idealize.ShloMosaic.Lib.Pipeline.Value

noncomputable section

namespace Cert.EdgeFeature

open Idealize.ShloMosaic Idealize.ShloMosaic.ValueIdx

/-- The point cloud's shape, the gathered neighbours', the kernel's flat output's and the result's. -/
abbrev SCloud : Shape := ⟨3, ![4, 8192, 64]⟩
abbrev SNbrs : Shape := ⟨4, ![4, 8192, 20, 64]⟩
abbrev SFlat : Shape := ⟨3, ![4, 8192, 3860]⟩
abbrev SEdges : Shape := ⟨4, ![4, 8192, 20, 193]⟩

/-- Entry `j` of the feature row of a query row `x` and a neighbour row `y`. -/
def feat (x y : Fin 64 → EReal) (j : Fin 193) : EReal :=
  if h0 : j.val < 64 then x ⟨j.val, h0⟩
  else if h1 : j.val < 128 then y ⟨j.val - 64, by omega⟩
  else if _h2 : j.val < 192 then y ⟨j.val - 128, by omega⟩ - x ⟨j.val - 128, by omega⟩
  else ∑ c : Fin 64, (y c - x c) * (y c - x c)

/-- The feature row of batch `b`, query `n`, neighbour slot `k`. -/
def edgeAt (x : SCloud.Idx → EReal) (nb : SNbrs.Idx → EReal) (b : Fin 4) (n : Fin 8192) (k : Fin 20) (j : Fin 193) : EReal :=
  feat (fun c => x (ix3 b n c)) (fun c => nb (ix4 b n k c)) j

/-- The result array: entry (b, n, k, j). -/
def edges (x : SCloud.Idx → EReal) (nb : SNbrs.Idx → EReal) : SEdges.Idx → EReal := fun i =>
  edgeAt x nb ⟨(i 0).val, (i 0).isLt⟩ ⟨(i 1).val, (i 1).isLt⟩ ⟨(i 2).val, (i 2).isLt⟩ ⟨(i 3).val, (i 3).isLt⟩

theorem flat_lt {l : Nat} (h : l < 3860) : l / 193 < 20 := by omega

/-- The same entries with the last two axes run together: entry (b, n, l) is entry `l % 193` of neighbour `l / 193`. -/
def flat (x : SCloud.Idx → EReal) (nb : SNbrs.Idx → EReal) : SFlat.Idx → EReal := fun i =>
  edgeAt x nb ⟨(i 0).val, (i 0).isLt⟩ ⟨(i 1).val, (i 1).isLt⟩ ⟨(i 2).val / 193, flat_lt (i 2).isLt⟩ ⟨(i 2).val % 193, Nat.mod_lt _ (by decide)⟩

/-- Splitting the long axis of `flat` into (neighbour, entry) gives `edges`: entry (b, n, k, j) sits at `l = 193 k + j`. -/
theorem edges_eq_reshape (x : SCloud.Idx → EReal) (nb : SNbrs.Idx → EReal) (h : SFlat.ShapeCasts SEdges) :
    shapeCast SEdges (flat x nb) h = edges x nb := by
  funext i
  have h2 : (i 2).val < 20 := (i 2).isLt
  have h3 : (i 3).val < 193 := (i 3).isLt
  refine (shapeCast_apply _ h i (fun a => match a with
      | ⟨0, _⟩ => ⟨(i 0).val, (i 0).isLt⟩
      | ⟨1, _⟩ => ⟨(i 1).val, (i 1).isLt⟩
      | ⟨2, _⟩ => ⟨(i 2).val * 193 + (i 3).val, by show (i 2).val * 193 + (i 3).val < 3860; omega⟩)
    (by rw [Shape.rowMajor_val_three, Shape.rowMajor_val_four]
        show ((i 0).val * 8192 + (i 1).val) * 3860 + ((i 2).val * 193 + (i 3).val)
          = (((i 0).val * 8192 + (i 1).val) * 20 + (i 2).val) * 193 + (i 3).val
        omega)).trans ?_
  show edgeAt x nb _ _ ⟨((i 2).val * 193 + (i 3).val) / 193, _⟩ ⟨((i 2).val * 193 + (i 3).val) % 193, _⟩ = edgeAt x nb _ _ _ _
  congr 1
  · exact Fin.ext (by show ((i 2).val * 193 + (i 3).val) / 193 = (i 2).val; omega)
  · exact Fin.ext (by show ((i 2).val * 193 + (i 3).val) % 193 = (i 3).val; omega)

end Cert.EdgeFeature

end
-- ==== Proof.Tile.lean ====
/-
  What one grid point of the kernel computes, entry by entry.

  The body loads a block `x0` of 512 query rows ([1, 512, 64]) and the block `x1` of their gathered neighbours
  ([1, 512, 20, 64]), spreads each query row over its 20 neighbour slots, subtracts, squares and sums over the 64
  coordinates, joins the four pieces along the last axis into a [512, 20, 193] tile and stores the tile with its last
  two axes run together ([1, 512, 3860]). `tile_apply`: entry `193 k + j` of row `r` of what is stored is entry `j` of
  the feature row (`Cert.EdgeFeature.feat`) of query row `r` and its neighbour `k`.
-/
import proofs.«412193_j11141145166318_4_alg».proof.Proof.Gen.KernelIdeal.Skeleton
import proofs.«412193_j11141145166318_4_alg».proof.Proof.Feature
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.EdgeFeature

/-- The query rows, each repeated over its 20 neighbour slots. -/
def cen (x0 : Vec Ideal S1x512x64 .f32) : FVec Ideal S512x20x64 .f32 :=
  broadcastTo S512x20x64
    (shapeCast S512x1x64 (shapeCast S512x1x64 (shapeCast S512x64 x0 shapeCasts_S1x512x64_S512x64) shapeCasts_S512x64_S512x1x64)
      shapeCasts_S512x1x64_S512x1x64) broadcasts_S512x1x64_S512x20x64

/-- The neighbour rows, the block's leading unit axis dropped. -/
def nbr (x1 : Vec Ideal S1x512x20x64 .f32) : FVec Ideal S512x20x64 .f32 :=
  shapeCast S512x20x64 x1 shapeCasts_S1x512x20x64_S512x20x64

/-- The squared distances, one per (query, neighbour), as a column. -/
def dist (x0 : Vec Ideal S1x512x64 .f32) (x1 : Vec Ideal S1x512x20x64 .f32) : FVec Ideal S512x20x1 .f32 :=
  shapeCast S512x20x1
    (multiReduction .add [2] S512x20 (mulf (subf (nbr x1) (cen x0)) (subf (nbr x1) (cen x0))) 0x00000000#32
      reduces_S512x20x64_S512x20 (.inl rfl) rfl) shapeCasts_S512x20_S512x20x1

/-- The stored value is the four pieces joined along the last axis, then re-laid twice. -/
theorem pay_eq (x0 : Vec Ideal S1x512x64 .f32) (x1 : Vec Ideal S1x512x20x64 .f32) :
    k0_pay1 (F := Ideal) x0 x1
      = shapeCast S1x512x3860 (shapeCast S512x3860
          (concatenate S512x20x193 2 [⟨S512x20x64, cen x0⟩, ⟨S512x20x64, nbr x1⟩, ⟨S512x20x64, subf (nbr x1) (cen x0)⟩, ⟨S512x20x1, dist x0 x1⟩]
            concatenates_S512x20x64_S512x20x64_S512x20x64_S512x20x1_S512x20x193_d2)
          shapeCasts_S512x20x193_S512x3860) shapeCasts_S512x3860_S1x512x3860 := rfl

/-- Slot `k` of query `r` holds the query's own row. -/
theorem cen_apply (x0 : Vec Ideal S1x512x64 .f32) (r : Fin 512) (k : Fin 20) (c : Fin 64) :
    cen x0 (ix3 r k c) = x0 (ix3 (0 : Fin 1) r c) := by
  unfold cen
  refine (broadcastTo_apply _ _ (ix3 r k c) (ix3 r (0 : Fin 1) c) (fun a => match a with
    | ⟨0, _⟩ => by show r.val = if (512 : Nat) = 1 then 0 else r.val; rw [if_neg (by decide)]
    | ⟨1, _⟩ => by show 0 = if (1 : Nat) = 1 then 0 else k.val; rw [if_pos rfl]
    | ⟨2, _⟩ => by show c.val = if (64 : Nat) = 1 then 0 else c.val; rw [if_neg (by decide)])).trans ?_
  rw [shapeCast_self]
  refine (shapeCast_apply _ _ _ (ix2 r c) (by
    rw [Shape.rowMajor_val_two, Shape.rowMajor_val_three]
    show r.val * 64 + c.val = (r.val * 1 + 0) * 64 + c.val
    omega)).trans ?_
  exact shapeCast_apply _ _ _ (ix3 (0 : Fin 1) r c) (by
    rw [Shape.rowMajor_val_two, Shape.rowMajor_val_three]
    show (0 * 512 + r.val) * 64 + c.val = r.val * 64 + c.val
    omega)

/-- Slot `k` of query `r` of the neighbour piece is the loaded block's row (r, k). -/
theorem nbr_apply (x1 : Vec Ideal S1x512x20x64 .f32) (r : Fin 512) (k : Fin 20) (c : Fin 64) :
    nbr x1 (ix3 r k c) = x1 (ix4 (0 : Fin 1) r k c) := by
  unfold nbr
  exact shapeCast_apply _ _ _ (ix4 (0 : Fin 1) r k c) (by
    rw [Shape.rowMajor_val_three, Shape.rowMajor_val_four]
    show ((0 * 512 + r.val) * 20 + k.val) * 64 + c.val = (r.val * 20 + k.val) * 64 + c.val
    omega)

/-- The distance column at (r, k) is the sum over the 64 coordinates of the squared differences. -/
theorem dist_apply (x0 : Vec Ideal S1x512x64 .f32) (x1 : Vec Ideal S1x512x20x64 .f32) (r : Fin 512) (k : Fin 20) :
    dist x0 x1 (ix3 r k (0 : Fin 1))
      = ∑ c : Fin 64, (x1 (ix4 (0 : Fin 1) r k c) - x0 (ix3 (0 : Fin 1) r c)) * (x1 (ix4 (0 : Fin 1) r k c) - x0 (ix3 (0 : Fin 1) r c)) := by
  unfold dist
  refine (shapeCast_apply _ _ _ (ix2 r k) (by
    rw [Shape.rowMajor_val_two, Shape.rowMajor_val_three]
    show r.val * 20 + k.val = (r.val * 20 + k.val) * 1 + 0
    omega)).trans ?_
  refine (Ideal.multiReduction_add_single _ _ _ _ _ _).trans ?_
  show (∑ c : Fin 64, mulf (subf (nbr x1) (cen x0)) (subf (nbr x1) (cen x0)) ((reduces_S512x20x64_S512x20).lift (ix2 r k) c)) = _
  refine Finset.sum_congr rfl fun c _ => ?_
  have e : (reduces_S512x20x64_S512x20).lift (ix2 r k) c = ix3 r k c :=
    funext fun a => Fin.ext (by match a with | ⟨0, _⟩ => rfl | ⟨1, _⟩ => rfl | ⟨2, _⟩ => rfl)
  rw [e]
  show (nbr x1 (ix3 r k c) - cen x0 (ix3 r k c)) * (nbr x1 (ix3 r k c) - cen x0 (ix3 r k c)) = _
  rw [nbr_apply, cen_apply]

/-- Entry `193 k + j` of row `r` of the stored block is entry `j` of the feature row of query `r` and neighbour `k`. -/
theorem tile_apply (x0 : Vec Ideal S1x512x64 .f32) (x1 : Vec Ideal S1x512x20x64 .f32) (r : Fin 512) (k : Fin 20) (j : Fin 193)
    (y : S1x512x3860.Idx) (h1 : (y 1).val = r.val) (h2 : (y 2).val = k.val * 193 + j.val) :
    k0_pay1 (F := Ideal) x0 x1 y = feat (fun c => x0 (ix3 (0 : Fin 1) r c)) (fun c => x1 (ix4 (0 : Fin 1) r k c)) j := by
  have h0 : (y 0).val < 1 := (y 0).isLt
  have hk : k.val < 20 := k.isLt
  have hj : j.val < 193 := j.isLt
  rw [pay_eq]
  refine (shapeCast_apply _ _ y (ix2 r (⟨k.val * 193 + j.val, by omega⟩ : Fin 3860)) (by
    rw [Shape.rowMajor_val_two, Shape.rowMajor_val_three]
    show r.val * 3860 + (k.val * 193 + j.val) = ((y 0).val * 512 + (y 1).val) * 3860 + (y 2).val
    omega)).trans ?_
  refine (shapeCast_apply _ _ _ (ix3 r k j) (by
    rw [Shape.rowMajor_val_three, Shape.rowMajor_val_two]
    show (r.val * 20 + k.val) * 193 + j.val = r.val * 3860 + (k.val * 193 + j.val)
    omega)).trans ?_
  unfold feat
  by_cases c0 : j.val < 64
  · rw [dif_pos c0]
    refine (concatenate_apply_piece 2 _ _ (ix3 r k j) 0 (by show 0 < 4; omega) S512x20x64 (cen x0) rfl rfl 0 rfl (ix3 r k ⟨j.val, c0⟩)
      (fun b hb => match b with | ⟨0, _⟩ => rfl | ⟨1, _⟩ => rfl | ⟨2, _⟩ => (hb rfl).elim) (Nat.zero_add _)).trans ?_
    exact cen_apply x0 r k ⟨j.val, c0⟩
  · rw [dif_neg c0]
    by_cases c1 : j.val < 128
    · rw [dif_pos c1]
      refine (concatenate_apply_piece 2 _ _ (ix3 r k j) 1 (by show 1 < 4; omega) S512x20x64 (nbr x1) rfl rfl 64 rfl (ix3 r k ⟨j.val - 64, by omega⟩)
        (fun b hb => match b with | ⟨0, _⟩ => rfl | ⟨1, _⟩ => rfl | ⟨2, _⟩ => (hb rfl).elim)
        (by show 64 + (j.val - 64) = j.val; omega)).trans ?_
      exact nbr_apply x1 r k ⟨j.val - 64, by omega⟩
    · rw [dif_neg c1]
      by_cases c2 : j.val < 192
      · rw [dif_pos c2]
        refine (concatenate_apply_piece 2 _ _ (ix3 r k j) 2 (by show 2 < 4; omega) S512x20x64 (subf (nbr x1) (cen x0)) rfl rfl 128 rfl
          (ix3 r k ⟨j.val - 128, by omega⟩)
          (fun b hb => match b with | ⟨0, _⟩ => rfl | ⟨1, _⟩ => rfl | ⟨2, _⟩ => (hb rfl).elim)
          (by show 128 + (j.val - 128) = j.val; omega)).trans ?_
        show nbr x1 (ix3 r k ⟨j.val - 128, _⟩) - cen x0 (ix3 r k ⟨j.val - 128, _⟩) = _
        rw [nbr_apply, cen_apply]
      · rw [dif_neg c2]
        refine (concatenate_apply_piece 2 _ _ (ix3 r k j) 3 (by show 3 < 4; omega) S512x20x1 (dist x0 x1) rfl rfl 192 rfl
          (ix3 r k (0 : Fin 1))
          (fun b hb => match b with | ⟨0, _⟩ => rfl | ⟨1, _⟩ => rfl | ⟨2, _⟩ => (hb rfl).elim)
          (by show 192 + 0 = j.val; omega)).trans ?_
        exact dist_apply x0 x1 r k

/-- The stored block as a block of `flat`: if the loaded query block `x0` is rows `512 q1 …` of batch `q0` of the point
    cloud `X`, and the loaded neighbour block `x1` the same rows of the neighbour array `NB`, then entry `y` of what is
    stored is `flat X NB` at the array index `i` with the same batch, row `512 q1 + y 1` and the same long coordinate. -/
theorem block_eq_flat (X : SCloud.Idx → EReal) (NB : SNbrs.Idx → EReal)
    (x0 : Vec Ideal S1x512x64 .f32) (x1 : Vec Ideal S1x512x20x64 .f32) (q0 q1 : Nat)
    (hx0 : ∀ (r : Fin 512) (c : Fin 64) (k : SCloud.Idx), (k 0).val = q0 → (k 1).val = q1 * 512 + r.val → (k 2).val = c.val →
      x0 (ix3 (0 : Fin 1) r c) = X k)
    (hx1 : ∀ (r : Fin 512) (s : Fin 20) (c : Fin 64) (k : SNbrs.Idx), (k 0).val = q0 → (k 1).val = q1 * 512 + r.val →
      (k 2).val = s.val → (k 3).val = c.val → x1 (ix4 (0 : Fin 1) r s c) = NB k)
    (y : S1x512x3860.Idx) (i : SFlat.Idx)
    (hi0 : (i 0).val = q0) (hi1 : (i 1).val = q1 * 512 + (y 1).val) (hi2 : (i 2).val = (y 2).val) :
    k0_pay1 (F := Ideal) x0 x1 y = flat X NB i := by
  have hy1 : (y 1).val < 512 := (y 1).isLt
  have hy2 : (y 2).val < 3860 := (y 2).isLt
  refine (tile_apply x0 x1 ⟨(y 1).val, hy1⟩ ⟨(y 2).val / 193, by omega⟩ ⟨(y 2).val % 193, Nat.mod_lt _ (by decide)⟩ y rfl
    (by show (y 2).val = (y 2).val / 193 * 193 + (y 2).val % 193; omega)).trans ?_
  unfold flat edgeAt
  congr 1
  · funext c
    exact hx0 _ c _ hi0 hi1 rfl
  · funext c
    exact hx1 _ _ c _ hi0 hi1 (by show (i 2).val / 193 = (y 2).val / 193; rw [hi2]) rfl
  · exact Fin.ext (by show (y 2).val % 193 = (i 2).val % 193; rw [hi2])

end Cert.KernelIdeal.Tile

end
-- ==== Proof.KernelValue.lean ====
/-
  What the kernel program leaves in its result.

  The host lines before the call gather, for every query point, the rows of its 20 neighbours out of the point cloud
  (`V_gathered`: the array the call reads is the gather of the two arguments, the same term the reference computes its
  neighbours with). The call runs over a 4 × 16 grid: point (b, q) loads rows `512 q … 512 q + 511` of batch `b` of the
  point cloud and of the neighbour array and writes back the same rows of the [4, 8192, 3860] output, each row the 20
  feature rows of one query laid end to end (`flushed_eq`, from `Tile.block_eq_flat`). The 64 blocks tile the output
  (`cover`), so after the call it holds `flat` of the point cloud and the neighbours (`final`); the host line after the
  call splits the long axis back into (neighbour, entry), which gives `edges` (`tail`). `run` restates the program's run
  with that result.
-/
import proofs.«412193_j11141145166318_4_alg».proof.Proof.Gen.KernelIdeal.Frame
import proofs.«412193_j11141145166318_4_alg».proof.Proof.Gen.ReferenceIdeal.Read
import proofs.«412193_j11141145166318_4_alg».proof.Proof.Tile
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.EdgeFeature
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The neighbour array the call reads is the gather of the point cloud at the (wrapped) neighbour indices, as the host
    lines before the call compute it. -/
theorem V_gathered (c : Dev nD) :
    (V m c main_v16 : S4x8192x20x64.Idx → EReal)
      = Cert.ReferenceIdeal.Read.val_main_v16 (F := Ideal) (m ((c : Thread nD τ).loc main_arg0)) (m ((c : Thread nD τ).loc main_arg1)) := by
  show StableHlo.after hostOps0 (fun b => m (c, b)) (Proc.devRef .tc main_v16) = _
  after_results
  rfl

/-- The block index maps, decided over the 64 grid points: the two input windows move with the output window on the
    batch and row-block axes, and every other block index is zero. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 4) = win0_2.index t (0 : Fin 3) ∧ win0_1.index t (1 : Fin 4) = win0_2.index t (1 : Fin 3)
    ∧ win0_1.index t (2 : Fin 4) = 0 ∧ win0_1.index t (3 : Fin 4) = 0
    ∧ win0_2.index t (2 : Fin 3) = 0 :=
  (by decide +kernel : ∀ t : Fin grid0.N, _)

/-- Every (batch, row block) is some grid point's. -/
theorem idx_onto : ∀ (q0 : Fin 4) (q1 : Fin 16), ∃ t : Fin cfg0.N, win0_2.index t = ![q0.val, q1.val, 0] :=
  (by decide +kernel : ∀ (q0 : Fin 4) (q1 : Fin 16), ∃ t : Fin grid0.N, win0_2.index t = ![q0.val, q1.val, 0])

/-- The query block at a point is the point cloud read at the block's rows. -/
theorem iblk0_apply (c : Dev nD) (t : Fin cfg0.N) (y : S1x512x64.Idx) (k : S4x8192x64.Idx)
    (h0 : win0_0.index t (0 : Fin 3) * 1 + 1 * (y 0).val = (k 0).val)
    (h1 : win0_0.index t (1 : Fin 3) * 512 + 1 * (y 1).val = (k 1).val)
    (h2 : win0_0.index t (2 : Fin 3) * 64 + 1 * (y 2).val = (k 2).val) :
    (iblk m c 0 t : Vec Ideal S1x512x64 .f32) y = (V m c main_arg0 : S4x8192x64.Idx → EReal) k := by
  unfold iblk
  rw [View.read_apply]
  show V m c main_arg0 _ = V m c main_arg0 _
  congr 1
  funext a
  apply Fin.ext
  match a with
  | ⟨0, _⟩ => exact h0
  | ⟨1, _⟩ => exact h1
  | ⟨2, _⟩ => exact h2

/-- The neighbour block at a point is the neighbour array read at the block's rows. -/
theorem iblk1_apply (c : Dev nD) (t : Fin cfg0.N) (y : S1x512x20x64.Idx) (k : S4x8192x20x64.Idx)
    (h0 : win0_1.index t (0 : Fin 4) * 1 + 1 * (y 0).val = (k 0).val)
    (h1 : win0_1.index t (1 : Fin 4) * 512 + 1 * (y 1).val = (k 1).val)
    (h2 : win0_1.index t (2 : Fin 4) * 20 + 1 * (y 2).val = (k 2).val)
    (h3 : win0_1.index t (3 : Fin 4) * 64 + 1 * (y 3).val = (k 3).val) :
    (iblk m c 1 t : Vec Ideal S1x512x20x64 .f32) y = (V m c main_v16 : S4x8192x20x64.Idx → EReal) k := by
  unfold iblk
  rw [View.read_apply]
  show V m c main_v16 _ = V m c main_v16 _
  congr 1
  funext a
  apply Fin.ext
  match a with
  | ⟨0, _⟩ => exact h0
  | ⟨1, _⟩ => exact h1
  | ⟨2, _⟩ => exact h2
  | ⟨3, _⟩ => exact h3

/-- What point `t` writes back is its block of `flat` of the point cloud and the neighbour array. -/
theorem flushed_eq (c : Dev nD) (t : Fin cfg0.N) :
    (dats m 0 c).flushed 2 t
      = ((cfg0.win 2).blk t).view.read (Elt Ideal) (flat (V m c main_arg0) (V m c main_v16)) := by
  show (cfg0.win 2).cut (grid0.coords t) ((dats m 0 c).after 2 t) = _
  rw [after0_2]
  unfold out0_2
  rw [View.canon_unit_zero hz3]
  simp only [View.ld_unit_zero (S := S1x512x64) hz3, View.ld_unit_zero (S := S1x512x20x64) hz4]
  obtain ⟨e0, e1, e2, e3, e4, e5, e6, e7⟩ := idx_facts t
  funext y
  rw [View.read_apply]
  refine Cert.KernelIdeal.Tile.block_eq_flat (V m c main_arg0) (V m c main_v16) (iblk m c 0 t) (iblk m c 1 t)
    (win0_2.index t (0 : Fin 3)) (win0_2.index t (1 : Fin 3))
    (fun r cc k h0 h1 h2 => iblk0_apply m c t (ix3 (0 : Fin 1) r cc) k
      (by show win0_0.index t (0 : Fin 3) * 1 + 1 * 0 = (k 0).val; omega)
      (by show win0_0.index t (1 : Fin 3) * 512 + 1 * r.val = (k 1).val; omega)
      (by show win0_0.index t (2 : Fin 3) * 64 + 1 * cc.val = (k 2).val; omega))
    (fun r s cc k h0 h1 h2 h3 => iblk1_apply m c t (ix4 (0 : Fin 1) r s cc) k
      (by show win0_1.index t (0 : Fin 4) * 1 + 1 * 0 = (k 0).val; omega)
      (by show win0_1.index t (1 : Fin 4) * 512 + 1 * r.val = (k 1).val; omega)
      (by show win0_1.index t (2 : Fin 4) * 20 + 1 * s.val = (k 2).val; omega)
      (by show win0_1.index t (3 : Fin 4) * 64 + 1 * cc.val = (k 3).val; omega))
    _ _ ?_ ?_ ?_
  · have hy0 : (y 0).val < 1 := (y 0).isLt
    show win0_2.index t (0 : Fin 3) * 1 + 1 * (y 0).val = win0_2.index t (0 : Fin 3)
    omega
  · show win0_2.index t (1 : Fin 3) * 512 + 1 * (y 1).val = win0_2.index t (1 : Fin 3) * 512 + (y 1).val
    omega
  · show win0_2.index t (2 : Fin 3) * 3860 + 1 * (y 2).val = (y 2).val
    omega

/-- An index of the output array is in point `t`'s block iff each coordinate is in the block's range on its axis. -/
theorem mem_blk (t : Fin cfg0.N) (i : S4x8192x3860.Idx) :
    i ∈ ((cfg0.win 2).blk t).view.set ↔ ∀ a : Fin 3, win0_2.index t a * S1x512x3860.size a ≤ (i a).val
      ∧ (i a).val < win0_2.index t a * S1x512x3860.size a + S1x512x3860.size a := by
  show i ∈ ((View.whole main_v17).slice (win0_2.rect t)).set ↔ _
  rw [View.set_slice_whole, Rect.mem_set_unit]
  exact Iff.rfl

/-- The 64 blocks tile the output: row `n` of batch `b` is in the block of point (b, n / 512). -/
theorem cover (i : S4x8192x3860.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 3860 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 3860 ≤ (i 2).val ∧ (i 2).val < win0_2.index t (2 : Fin 3) * 3860 + 3860
    omega

/-- The output array after the call. -/
theorem final (c : Dev nD) : (dats m 0 c).arrAt 2 cfg0.N = flat (V m c main_arg0) (V m c main_v16) :=
  (dats m 0 c).arrAt_eq_of_cover 2 _ (fun t _ => flushed_eq m c t) cover

/-- The program's result: the host line after the call splits the output's long axis into (neighbour, entry). -/
theorem tail (c : Dev nD) :
    Pipeline.afterTail₀ cfgs (dats m) 0 (V0 m) [hostOps1] c main_v18
      = edges (m ((c : Thread nD τ).loc main_arg0))
          (Cert.ReferenceIdeal.Read.val_main_v16 (F := Ideal) (m ((c : Thread nD τ).loc main_arg0)) (m ((c : Thread nD τ).loc main_arg1))) := by
  unfold Pipeline.afterTail₀
  show StableHlo.after hostOps1 _ (Proc.devRef .tc main_v18) = _
  after_results
  rw [← V_gathered m c, ← V_main_arg0 m c, ← edges_eq_reshape _ _ shapeCasts_S4x8192x3860_S4x8192x20x193, ← final m c]
  exact congrArg (fun z => shapeCast S4x8192x20x193 z shapeCasts_S4x8192x3860_S4x8192x20x193)
    (Pipeline.withArrays_arr spec0 launch0.win.arr_inj c _ _ 2)

/-- The run, read: the result at the feature rows of the point cloud and its gathered neighbours, the arguments unchanged. -/
theorem run : θ_run defs (onTc (τ := τ) (main (F := Ideal))) ⟨m, fun _ => 0, ρ⟩ fun r => ∀ c : Dev nD,
      r.2.mem ((c : Thread nD τ).loc main_v18)
        = edges (m ((c : Thread nD τ).loc main_arg0))
            (Cert.ReferenceIdeal.Read.val_main_v16 (F := Ideal) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v18 (Pipeline.mem_restRefs_of main_v18 (by decide) (by decide))).trans (tail m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.KernelValue

end
-- ==== Proof.RefFeature.lean ====
/-
  The reference's result, entry by entry.

  The reference spreads the point cloud over the 20 neighbour slots, subtracts it from the gathered neighbours, squares,
  sums over the 64 coordinates from a zero initial value, and joins the four arrays along the last axis. `ref_eq`: its
  result is `Cert.EdgeFeature.edges` of the point cloud and the gathered neighbour array — entry (b, n, k, j) is entry
  `j` of the feature row of query (b, n) and its neighbour `k`. The gather itself is never opened: both programs take
  the neighbours from the same gather of the same operands.
-/
import proofs.«412193_j11141145166318_4_alg».proof.Proof.Gen.ReferenceIdeal.Read
import proofs.«412193_j11141145166318_4_alg».proof.Proof.Feature
import Idealize.ShloMosaic.Lib.Pipeline.Value
import Idealize.ShloMosaic.Lib.ValueIdx
import Idealize.ShloMosaic.PureOps.Ideal.Laws

noncomputable section

namespace Cert.ReferenceIdeal.RefFeature

open Cert.ReferenceIdeal Cert.ReferenceIdeal.Gen Cert.ReferenceIdeal.Read
open Idealize.ShloMosaic Idealize.ShloMosaic.ValueIdx Cert.EdgeFeature

variable (x : (⟨S4x8192x64, .f32⟩ : BufTy).Contents (Elt Ideal)) (idx : (⟨S4x8192x20, .i32⟩ : BufTy).Contents (Elt Ideal))

/-- The point cloud spread over the neighbour slots: at (b, n, k, c) it is the point cloud at (b, n, c). -/
theorem central_apply (b : Fin 4) (n : Fin 8192) (k : Fin 20) (c : Fin 64) :
    val_main_v18 (F := Ideal) x (ix4 b n k c) = x (ix3 b n c) := by
  rw [val_main_v18_apply, val_main_v17_apply]
  exact congrArg x (funext fun a => Fin.ext (by match a with | ⟨0, _⟩ => rfl | ⟨1, _⟩ => rfl | ⟨2, _⟩ => rfl))

/-- The relative coordinates: neighbour less query. -/
theorem relative_apply (b : Fin 4) (n : Fin 8192) (k : Fin 20) (c : Fin 64) :
    val_main_v19 (F := Ideal) x idx (ix4 b n k c) = val_main_v16 (F := Ideal) x idx (ix4 b n k c) - x (ix3 b n c) := by
  rw [val_main_v19_apply, central_apply]
  rfl

/-- The squared distance: the host's sum from a zero initial value is the plain sum. -/
theorem distance_apply (b : Fin 4) (n : Fin 8192) (k : Fin 20) :
    val_main_v22 (F := Ideal) x idx (ix4 b n k (0 : Fin 1))
      = ∑ c : Fin 64, (val_main_v16 (F := Ideal) x idx (ix4 b n k c) - x (ix3 b n c)) * (val_main_v16 (F := Ideal) x idx (ix4 b n k c) - x (ix3 b n c)) := by
  rw [val_main_v22_apply, val_main_v21_apply, val_main_cst_apply]
  show Ideal.ofBits .f32 0x00000000#32 + _ = _
  rw [Ideal.ofBits_zero_f32, zero_add]
  refine Finset.sum_congr rfl fun c _ => ?_
  have e : idx_main_v21 (idx_main_v22 (ix4 b n k (0 : Fin 1))) c = ix4 b n k c :=
    funext fun a => Fin.ext (by match a with | ⟨0, _⟩ => rfl | ⟨1, _⟩ => rfl | ⟨2, _⟩ => rfl | ⟨3, _⟩ => rfl)
  rw [e, val_main_v20_apply, relative_apply]
  rfl

/-- Entry (b, n, k, j) of the reference's result is entry `j` of the feature row of query (b, n) and neighbour `k`. -/
theorem ref_apply (b : Fin 4) (n : Fin 8192) (k : Fin 20) (j : Fin 193) :
    val_main_v23 (F := Ideal) x idx (ix4 b n k j) = edgeAt x (val_main_v16 (F := Ideal) x idx) b n k j := by
  have hj : j.val < 193 := j.isLt
  unfold val_main_v23 edgeAt feat
  by_cases c0 : j.val < 64
  · rw [dif_pos c0]
    refine (concatenate_apply_piece 3 _ _ (ix4 b n k j) 0 (by show 0 < 4; omega) S4x8192x20x64 (val_main_v18 (F := Ideal) x) rfl rfl 0 rfl
      (ix4 b n k ⟨j.val, c0⟩)
      (fun a hb => match a with | ⟨0, _⟩ => rfl | ⟨1, _⟩ => rfl | ⟨2, _⟩ => rfl | ⟨3, _⟩ => (hb rfl).elim) (Nat.zero_add _)).trans ?_
    exact central_apply x b n k ⟨j.val, c0⟩
  · rw [dif_neg c0]
    by_cases c1 : j.val < 128
    · rw [dif_pos c1]
      exact concatenate_apply_piece 3 _ _ (ix4 b n k j) 1 (by show 1 < 4; omega) S4x8192x20x64 (val_main_v16 (F := Ideal) x idx) rfl rfl 64 rfl
        (ix4 b n k ⟨j.val - 64, by omega⟩)
        (fun a hb => match a with | ⟨0, _⟩ => rfl | ⟨1, _⟩ => rfl | ⟨2, _⟩ => rfl | ⟨3, _⟩ => (hb rfl).elim)
        (by show 64 + (j.val - 64) = j.val; omega)
    · rw [dif_neg c1]
      by_cases c2 : j.val < 192
      · rw [dif_pos c2]
        refine (concatenate_apply_piece 3 _ _ (ix4 b n k j) 2 (by show 2 < 4; omega) S4x8192x20x64 (val_main_v19 (F := Ideal) x idx) rfl rfl 128 rfl
          (ix4 b n k ⟨j.val - 128, by omega⟩)
          (fun a hb => match a with | ⟨0, _⟩ => rfl | ⟨1, _⟩ => rfl | ⟨2, _⟩ => rfl | ⟨3, _⟩ => (hb rfl).elim)
          (by show 128 + (j.val - 128) = j.val; omega)).trans ?_
        exact relative_apply x idx b n k ⟨j.val - 128, by omega⟩
      · rw [dif_neg c2]
        refine (concatenate_apply_piece 3 _ _ (ix4 b n k j) 3 (by show 3 < 4; omega) S4x8192x20x1 (val_main_v22 (F := Ideal) x idx) rfl rfl 192 rfl
          (ix4 b n k (0 : Fin 1))
          (fun a hb => match a with | ⟨0, _⟩ => rfl | ⟨1, _⟩ => rfl | ⟨2, _⟩ => rfl | ⟨3, _⟩ => (hb rfl).elim)
          (by show 192 + 0 = j.val; omega)).trans ?_
        exact distance_apply x idx b n k

/-- The reference's result array is the feature rows of the point cloud and the gathered neighbours. -/
theorem ref_eq : val_main_v23 (F := Ideal) x idx = edges x (val_main_v16 (F := Ideal) x idx) :=
  funext fun i => (congrArg (val_main_v23 (F := Ideal) x idx) (eq_ix4 i)).trans (ref_apply x idx (i 0) (i 1) (i 2) (i 3))

end Cert.ReferenceIdeal.RefFeature

end
-- ==== Proof.lean ====
/-
  The edge-feature kernel against its reference, over the extended reals.

  Both programs gather, for each of the 4 × 8192 query points, the rows of its 20 neighbours out of the point cloud — with
  the same host gather of the same operands — and produce for every (query, neighbour) the 193 entries
  [query row, neighbour row, neighbour − query, ∑ (neighbour − query)²]. The reference does it on whole arrays; the
  kernel does it 512 queries at a time over a 4 × 16 grid, writes each query's 20 feature rows end to end into a
  [4, 8192, 3860] array, and the host line after the call splits that long axis back into (neighbour, entry).

  Proof/Feature.lean states the common result (`edges`), Proof/Tile.lean reads one grid point's stored block entry by
  entry, Proof/KernelValue.lean the kernel program's result array, Proof/RefFeature.lean the reference's. Both sides
  subtract, multiply and add in the same order (a sum from a zero start is the sum), so the two results are one
  function of the arguments and the precondition is never opened. The frames of the two kernel programs are the
  generated ones; the reference's is its generated run with the result dropped; nothing was idealized, so the
  idealization claim is trivial.
-/
import proofs.«412193_j11141145166318_4_alg».proof.Defs
import proofs.«412193_j11141145166318_4_alg».proof.Proof.Gen.Kernel
import proofs.«412193_j11141145166318_4_alg».proof.Proof.Gen.Kernel.Skeleton
import proofs.«412193_j11141145166318_4_alg».proof.Proof.Gen.Kernel.Launch
import proofs.«412193_j11141145166318_4_alg».proof.Proof.Gen.Kernel.Points
import proofs.«412193_j11141145166318_4_alg».proof.Proof.Gen.Kernel.Frame
import proofs.«412193_j11141145166318_4_alg».proof.Proof.Gen.KernelIdeal
import proofs.«412193_j11141145166318_4_alg».proof.Proof.Gen.KernelIdeal.Skeleton
import proofs.«412193_j11141145166318_4_alg».proof.Proof.Gen.KernelIdeal.Launch
import proofs.«412193_j11141145166318_4_alg».proof.Proof.Gen.KernelIdeal.Points
import proofs.«412193_j11141145166318_4_alg».proof.Proof.Gen.KernelIdeal.Frame
import proofs.«412193_j11141145166318_4_alg».proof.Proof.Gen.ReferenceIdeal
import proofs.«412193_j11141145166318_4_alg».proof.Proof.Gen.ReferenceIdeal.Run
import proofs.«412193_j11141145166318_4_alg».proof.Proof.Gen.ReferenceIdeal.Read
import proofs.«412193_j11141145166318_4_alg».proof.Proof.Gen.Pre_finite_inputs
import proofs.«412193_j11141145166318_4_alg».proof.Proof.KernelValue
import proofs.«412193_j11141145166318_4_alg».proof.Proof.RefFeature
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the feature rows (`Cert.EdgeFeature.edges`) of the point cloud and its gathered neighbours. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefFeature.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
